-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x1 : Shape := ⟨2, ![16384, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : FVec F S16384 .f32) (main_arg1 : FVec F S16384 .f32) (main_arg2 : FVec F S16384x1 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  main_v13
-- ==== Kernel.lean ====
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S1024x1 : Shape := ⟨2, ![1024, 1]⟩
abbrev S1x2048 : Shape := ⟨2, ![1, 2048]⟩
abbrev S2048x1 : Shape := ⟨2, ![2048, 1]⟩
abbrev S1024x2048 : Shape := ⟨2, ![1024, 2048]⟩

abbrev nBuf : Space → Nat
  | .hbm => 26
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S1x16384, .f32⟩
  | .hbm, ⟨14, _⟩ => ⟨S16384x1, .f32⟩
  | .hbm, ⟨15, _⟩ => ⟨S16384x1, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S2048x1, .f32⟩
  | .local _ .vmem, ⟨5, _⟩ => ⟨S2048x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384x1_S16384 : S16384x1.ShapeCasts S16384
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reducesTo_S16384_S_d0 : S16384.ReducesTo [0] S_
  h_S_ : 0 < S_.numel
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_v7) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S16384x16384 : Shape := ⟨2, ![16384, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S1x16384, .f32⟩
  | .hbm, ⟨14, _⟩ => ⟨S16384x16384, .f32⟩
  | .hbm, ⟨15, _⟩ => ⟨S16384x16384, .f32⟩
  | .hbm, ⟨16, _⟩ => ⟨S16384x16384, .i1⟩
  | .hbm, ⟨17, _⟩ => ⟨S1x16384, .f32⟩
  | .hbm, ⟨18, _⟩ => ⟨S_, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.PointValues.lean ====
/-
  What one grid point leaves behind, for any float instance.

  The body keeps a running column in its scratch buffer. At a point it (re)sets the column to zeros when the
  point opens a row block's sweep, then adds the point's product column to what the scratch holds and stores the
  sum back whole; at the last point of a sweep it also copies the stored column into the output block. So, with
  `step x0 x1 x2 acc` the body's one arithmetic term (the scratch's column `acc` plus the product of the 0/1
  comparison matrix of `x0` against `x1` with the column `x2`):

    * a sweep's first point leaves `step x0 x1 x2 zeros` in the scratch,
    * every later point leaves `step x0 x1 x2 acc` over the column `acc` the point before left,
    * and a sweep's last point leaves that same column in the output block.

  Each statement reads the point's covering stores back: every store covers its whole buffer, so the last one
  stored is what the buffer holds, and a load after a store reads what was stored.
-/
import proofs.«136207_j69879117906541_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a store that starts at the buffer's origin. -/
theorem origin : (![0, 0] : Fin 2 → Nat) = fun _ => 0 := funext fun a => by fin_cases a <;> rfl

/-- A sweep's first point: zeros, then the step over them. -/
theorem scratch_first (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x1 .f32) (x1 : Vec F S1x2048 .f32) (x2 : Vec F S2048x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1) origin, View.readCov_unit_zero (S := S1024x1) _ origin]
  simp only [View.readAt_eq_ld, harg2.read_unread, harg3.read_unread, harg4.read_unread, harg5.read_unread, harg6.read_unread,
    View.ld_unit_zero (S := S1024x1) origin, View.ld_unit_zero (S := S1x2048) origin, View.ld_unit_zero (S := S2048x1) origin]

/-- A point inside a sweep: the step over the column the point before left. -/
theorem scratch_middle (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x1 .f32) (x1 : Vec F S1x2048 .f32) (x2 : Vec F S2048x1 .f32) (xs0 : Vec F S1024x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin]
  simp only [View.readAt_eq_ld, harg2.read_unread, harg3.read_unread, harg4.read_unread, harg5.read_unread, harg6.read_unread,
    View.ld_unit_zero (S := S1024x1) origin, View.ld_unit_zero (S := S1x2048) origin, View.ld_unit_zero (S := S2048x1) origin]

/-- A sweep's last point leaves the same step in the scratch, -/
theorem scratch_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x1 .f32) (x1 : Vec F S1x2048 .f32) (x2 : Vec F S2048x1 .f32) (xs0 : Vec F S1024x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg4.read_unread, harg5.read_unread, harg6.read_unread,
    View.ld_unit_zero (S := S1024x1) origin, View.ld_unit_zero (S := S1x2048) origin, View.ld_unit_zero (S := S2048x1) origin]

/-- and copies it into the output block: the copy loads the scratch after the step was stored there. -/
theorem out_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x1 .f32) (x1 : Vec F S1x2048 .f32) (x2 : Vec F S2048x1 .f32) (xs0 : Vec F S1024x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin, View.readCov_unit_zero (S := S1024x1) _ origin]
  simp only [View.readAt_eq_ld, harg2.read_unread, harg3.read_unread, harg4.read_unread, harg5.read_unread, harg6.read_unread,
    View.ld_unit_zero (S := S1024x1) origin, View.ld_unit_zero (S := S1x2048) origin, View.ld_unit_zero (S := S2048x1) origin]

end Cert.KernelIdeal.Acc

end
-- ==== Proof.BlockSum.lean ====
/-
  Two facts about sums over the extended reals, with no program in sight.

  * A weight that is one where a condition holds and zero elsewhere, times a value, is the value kept where the
    condition holds and zero elsewhere: over the extended reals `1 * e = e` and `0 * e = 0` for EVERY `e`, the
    infinities included, so nothing about `e` is asked.
  * A sum over 16384 consecutive positions is the sum, over its 8 consecutive stretches of 2048 positions, of each
    stretch's sum — position `j` is `b * 2048 + k` for exactly one stretch `b` and one offset `k`.
-/
import Idealize.ShloMosaic.PureOps.Ideal
import Mathlib.Algebra.BigOperators.Fin
import Mathlib.Logic.Equiv.Fin.Basic

namespace Cert.RiskSum

open Idealize.ShloMosaic

/-- The 0/1 weight times a value is the value kept or dropped. -/
theorem select_one_zero_mul (c : BitVec 1) (e : EReal) :
    Scalar.select c (1 : EReal) 0 * e = Scalar.select c e 0 := by
  unfold Scalar.select
  split
  · exact one_mul e
  · exact zero_mul e

/-- `m` consecutive stretches of `n` positions are the `m * n` positions: `(b, k) ↦ b * n + k` is a bijection. -/
theorem sum_stretches (m n : ℕ) (f : ℕ → EReal) :
    ∑ b ∈ Finset.range m, ∑ k : Fin n, f (b * n + k.val) = ∑ j : Fin (m * n), f j.val := by
  rw [← Fin.sum_univ_eq_sum_range (fun b => ∑ k : Fin n, f (b * n + k.val)) m]
  rw [← Fintype.sum_prod_type']
  refine Fintype.sum_equiv finProdFinEquiv _ _ (fun p => ?_)
  simp only [finProdFinEquiv_apply_val]
  congr 1
  ring

/-- The eight stretches of 2048 positions are the 16384 positions. -/
theorem sum_eight_stretches (f : ℕ → EReal) :
    ∑ b ∈ Finset.range 8, ∑ k : Fin 2048, f (b * 2048 + k.val) = ∑ j : Fin 16384, f j.val :=
  sum_stretches 8 2048 f

end Cert.RiskSum
-- ==== Proof.StepAtRow.lean ====
/-
  The body's arithmetic at one row, over the extended reals.

  The step adds to the running column `acc` the product of a [1024, 2048] matrix with a [2048, 1] column. The
  matrix is the comparison of a column `x0` (one entry per row) against a row `x1` (one entry per matrix
  column), written as the number one where `x0 r ≤ x1 k` and zero elsewhere; both operands pass through a change
  of float format, which is the identity on extended reals. A product into a zero accumulator is the plain sum
  over the contracted index of the operands' products, so at row `r` the step is

      acc r + ∑ k, (if x0 r ≤ x1 k then 1 else 0) * x2 k  =  acc r + ∑ k, (if x0 r ≤ x1 k then x2 k else 0),

  the 0/1 weight absorbed into the summand. The reset column is zero at every row.
-/
import proofs.«136207_j69879117906541_1_alg».proof.Proof.Gen.KernelIdeal.Skeleton
import proofs.«136207_j69879117906541_1_alg».proof.Proof.BlockSum
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.TcCoe Idealize.SL.Sem
open Idealize.ShloMosaic.ValueIdx

namespace Cert.KernelIdeal.Acc

open Cert.KernelIdeal Cert.KernelIdeal.Gen

/-! The product's operand indices: the left operand [1024, 2048] is read at (row, contracted), the right operand
    [2048, 1] at (contracted, column). One fact per operand axis, for any contraction index. -/

theorem lhs_axis0 (i : S1024x1.Idx) (q : dot_S1024x2048_S2048x1_S1024x1_1_0_0_1_n_n.contr.Idx) :
    (dot_S1024x2048_S2048x1_S1024x1_1_0_0_1_n_n.lhsIdx i q 0).val = (i 0).val := by
  unfold DotDims.lhsIdx
  rw [dif_neg (show ¬(0 : Fin S1024x2048.rank) ∈ dot_S1024x2048_S2048x1_S1024x1_1_0_0_1_n_n.lhsBatch by decide), dif_pos (show (0 : Fin S1024x2048.rank) ∈ dot_S1024x2048_S2048x1_S1024x1_1_0_0_1_n_n.lhsNonContracting by decide)]
  rfl
theorem lhs_axis1 (i : S1024x1.Idx) (q : dot_S1024x2048_S2048x1_S1024x1_1_0_0_1_n_n.contr.Idx) :
    (dot_S1024x2048_S2048x1_S1024x1_1_0_0_1_n_n.lhsIdx i q 1).val = (q ⟨0, by decide⟩).val :=
  dot_S1024x2048_S2048x1_S1024x1_1_0_0_1_n_n.lhsIdx_val_of_single rfl i q
theorem rhs_axis0 (i : S1024x1.Idx) (q : dot_S1024x2048_S2048x1_S1024x1_1_0_0_1_n_n.contr.Idx) :
    (dot_S1024x2048_S2048x1_S1024x1_1_0_0_1_n_n.rhsIdx i q 0).val = (q ⟨0, by decide⟩).val :=
  dot_S1024x2048_S2048x1_S1024x1_1_0_0_1_n_n.rhsIdx_val_of_single rfl i q
theorem rhs_axis1 (i : S1024x1.Idx) (q : dot_S1024x2048_S2048x1_S1024x1_1_0_0_1_n_n.contr.Idx) :
    (dot_S1024x2048_S2048x1_S1024x1_1_0_0_1_n_n.rhsIdx i q 1).val = (i 1).val := by
  unfold DotDims.rhsIdx
  rw [dif_neg (show ¬(1 : Fin S2048x1.rank) ∈ dot_S1024x2048_S2048x1_S1024x1_1_0_0_1_n_n.rhsBatch by decide), dif_pos (show (1 : Fin S2048x1.rank) ∈ dot_S1024x2048_S2048x1_S1024x1_1_0_0_1_n_n.rhsNonContracting by decide)]
  rfl

/-- The product of a [1024, 2048] matrix with a [2048, 1] column, into zeros, at row `r`: the sum over the 2048
    contracted positions of the row's entries times the column's. -/
theorem product_at_row (L : FVec Ideal S1024x2048 .bf16) (R : FVec Ideal S2048x1 .bf16) (r : Fin 1024) (z : Fin 1) :
    matmul dot_S1024x2048_S2048x1_S1024x1_1_0_0_1_n_n none L R (constant S1024x1 .f32 0x00000000#32) (ix2 r z)
      = ∑ k : Fin 2048, L (ix2 r k) * R (ix2 k z) := by
  simp only [matmul]
  rw [Ideal.matmul_constant_zero_apply, ← Equiv.sum_comp (ValueIdx.contrEquiv1 dot_S1024x2048_S2048x1_S1024x1_1_0_0_1_n_n 2048 rfl rfl).symm]
  refine Finset.sum_congr rfl fun k _ => ?_
  have hk := ValueIdx.contrEquiv1_symm_val dot_S1024x2048_S2048x1_S1024x1_1_0_0_1_n_n 2048 rfl rfl k
  have el : dot_S1024x2048_S2048x1_S1024x1_1_0_0_1_n_n.lhsIdx (ix2 r z) ((ValueIdx.contrEquiv1 dot_S1024x2048_S2048x1_S1024x1_1_0_0_1_n_n 2048 rfl rfl).symm k) = ix2 r k := funext fun a => Fin.ext (by
    match a with
    | ⟨0, _⟩ => exact lhs_axis0 _ _
    | ⟨1, _⟩ => exact (lhs_axis1 _ _).trans hk)
  have er : dot_S1024x2048_S2048x1_S1024x1_1_0_0_1_n_n.rhsIdx (ix2 r z) ((ValueIdx.contrEquiv1 dot_S1024x2048_S2048x1_S1024x1_1_0_0_1_n_n 2048 rfl rfl).symm k) = ix2 k z := funext fun a => Fin.ext (by
    match a with
    | ⟨0, _⟩ => exact (rhs_axis0 _ _).trans hk
    | ⟨1, _⟩ => exact rhs_axis1 _ _)
  rw [el, er]

/-- The comparison matrix's entry (r, k): one where the column's entry r is at most the row's entry k, else zero.
    The column is repeated along the matrix's columns and the row along its rows. -/
theorem weight_entry (x0 : FVec Ideal S1024x1 .f32) (x1 : FVec Ideal S1x2048 .f32) (r : Fin 1024) (k : Fin 2048) :
    (truncf .bf16 (select (cmpf .ole (broadcastTo S1024x2048 x0 broadcasts_S1024x1_S1024x2048) (broadcastTo S1024x2048 x1 broadcasts_S1x2048_S1024x2048))
        (broadcast S1024x2048 (Scalar.ofBits .f32 0x3F800000#32)) (broadcast S1024x2048 (Scalar.ofBits .f32 0x00000000#32))) bitsLt_bf16_f32 : FVec Ideal S1024x2048 .bf16) (ix2 r k)
      = Scalar.select (FloatOps.cmpf .ole (x0 (ix2 r 0)) (x1 (ix2 0 k))) (1 : EReal) 0 := by
  have e0 : broadcastTo S1024x2048 x0 broadcasts_S1024x1_S1024x2048 (ix2 r k) = x0 (ix2 r 0) :=
    broadcastTo_apply x0 _ (ix2 r k) (ix2 r 0) (fun a => by
      match a with
      | ⟨0, _⟩ => show r.val = if (1024 : Nat) = 1 then 0 else r.val; rw [if_neg (by decide)]
      | ⟨1, _⟩ => show 0 = if (1 : Nat) = 1 then 0 else k.val; rw [if_pos rfl])
  have e1 : broadcastTo S1024x2048 x1 broadcasts_S1x2048_S1024x2048 (ix2 r k) = x1 (ix2 0 k) :=
    broadcastTo_apply x1 _ (ix2 r k) (ix2 0 k) (fun a => by
      match a with
      | ⟨0, _⟩ => show 0 = if (1 : Nat) = 1 then 0 else r.val; rw [if_pos rfl]
      | ⟨1, _⟩ => show k.val = if (2048 : Nat) = 1 then 0 else k.val; rw [if_neg (by decide)])
  rw [truncf_apply, select_apply, cmpf_apply, e0, e1, broadcast_apply, broadcast_apply]
  show Scalar.select _ (Ideal.ofBits .f32 0x3F800000#32) (Ideal.ofBits .f32 0x00000000#32) = _
  rw [Ideal.ofBits_one_f32, Ideal.ofBits_zero_f32]

/-- The step at row `r`: the running column's entry plus the sum, over the row's 2048 positions, of the column
    `x2`'s entries kept where `x0 r ≤ x1 k`. -/
theorem step_at_row (x0 : Vec Ideal S1024x1 .f32) (x1 : Vec Ideal S1x2048 .f32) (x2 : Vec Ideal S2048x1 .f32) (acc : Vec Ideal S1024x1 .f32) (r : Fin 1024) (z : Fin 1) :
    k0_pay2 (F := Ideal) x0 x1 x2 acc (ix2 r z)
      = acc (ix2 r z) + ∑ k : Fin 2048, Scalar.select (Ideal.cmp .ole (x0 (ix2 r 0)) (x1 (ix2 0 k))) (x2 (ix2 k z) : EReal) (0 : EReal) := by
  unfold k0_pay2
  simp only [shapeCast_self]
  refine (addf_apply _ _ _).trans ?_
  refine congrArg (acc (ix2 r z) + ·) ?_
  refine (product_at_row _ _ r z).trans ?_
  refine Finset.sum_congr rfl fun k _ => ?_
  rw [weight_entry, truncf_apply]
  exact Cert.RiskSum.select_one_zero_mul _ _

/-- The reset column is zero everywhere. -/
theorem reset_at_row (j : S1024x1.Idx) : k0_pay1 (F := Ideal) j = (0 : EReal) := by
  unfold k0_pay1
  simp only [shapeCast_self]
  exact Ideal.ofBits_zero_f32

end Cert.KernelIdeal.Acc

end
-- ==== Proof.RiskSpec.lean ====
/-
  The risk-set sum, as a function of the two vectors it is made of — no program in sight.

  For survival times `s` and weights `e`, both of length 16384, the risk-set sum of sample `i` adds the weight of
  every sample `j` whose time is at least `s i`:

      risk s e i = ∑ j, (if s i ≤ s j then e j else 0).

  Around it both programs compute the weights `e` as the logistic function of the hazards (`logistic`) and finish
  with the loss, minus the mean of `(log e - log risk) * w` (`loss`); the two are stated here once, over the
  host's operations, so that each program's text can be recognized as them.

  The comparison is the extended reals' order and the kept value is chosen by the comparison's bit, exactly as
  both programs spell it. `entry` reads a vector at a position given as a natural number (zero past the end, a
  value nothing reads), so that block arithmetic on positions is plain arithmetic on natural numbers.
-/
import proofs.«136207_j69879117906541_1_alg».proof.Proof.BlockSum
import Idealize.ShloMosaic.Lib.ValueIdx

noncomputable section

namespace Cert.RiskSum

open Idealize.ShloMosaic Idealize.ShloMosaic.ValueIdx

/-- A vector of 16384 extended reals. -/
abbrev Col : Type := (⟨1, ![16384]⟩ : Shape).Idx → EReal

/-- The vector's entry at a position given as a natural number. -/
def entry (x : Col) (i : ℕ) : EReal := if h : i < 16384 then x (ix1 ⟨i, h⟩) else 0

theorem entry_of_lt (x : Col) (i : ℕ) (h : i < 16384) : entry x i = x (ix1 ⟨i, h⟩) := dif_pos h

/-- Sample `j`'s weight if its time is at least sample `i`'s, else zero. -/
def kept (s e : Col) (i j : ℕ) : EReal := Scalar.select (Ideal.cmp .ole (entry s i) (entry s j)) (entry e j) 0

/-- Equal times and weights give equal kept values. -/
theorem kept_of_eq (s e : Col) (i j : ℕ) {a b w : EReal} (ha : a = entry s i) (hb : b = entry s j) (hw : w = entry e j) :
    Scalar.select (Ideal.cmp .ole a b) w 0 = kept s e i j := by
  subst ha hb hw; rfl

/-- The risk-set sum of every sample. -/
def risk (s e : Col) : Col := fun i => ∑ j : Fin 16384, Scalar.select (Ideal.cmp .ole (s i) (s (ix1 j))) (e (ix1 j)) 0

/-- The risk-set sum at a position, over positions as natural numbers. -/
theorem risk_at (s e : Col) (i : Fin 16384) : risk s e (ix1 i) = ∑ j : Fin 16384, kept s e i.val j.val := by
  unfold risk
  refine Finset.sum_congr rfl fun j _ => ?_
  exact kept_of_eq s e i.val j.val (entry_of_lt s i.val i.isLt).symm (entry_of_lt s j.val j.isLt).symm (entry_of_lt e j.val j.isLt).symm

/-- The same sum gathered stretch by stretch: eight stretches of 2048 positions. -/
theorem risk_by_stretches (s e : Col) (i : Fin 16384) :
    risk s e (ix1 i) = ∑ b ∈ Finset.range 8, ∑ k : Fin 2048, kept s e i.val (b * 2048 + k.val) := by
  rw [risk_at, sum_eight_stretches (fun j => kept s e i.val j)]

/-- The weights: the logistic function `1 / (1 + exp (-θ))` of the hazards `θ`, a [16384, 1] column read as a vector,
    spelled with the host's operations (both programs compute the weights with exactly these lines). -/
def logistic (θ : FVec Idealize.ShloMosaic.Ideal ⟨2, ![16384, 1]⟩ .f32) (hc : (⟨2, ![16384, 1]⟩ : Shape).ShapeCasts ⟨1, ![16384]⟩)
    (hb : (⟨0, ![]⟩ : Shape).BroadcastsInDim ⟨1, ![16384]⟩ (![] : Fin 0 → Fin 1)) : Col :=
  Host.divf (broadcastInDim ⟨1, ![16384]⟩ ![] hb (constant ⟨0, ![]⟩ .f32 0x3F800000#32))
    (addf (broadcastInDim ⟨1, ![16384]⟩ ![] hb (constant ⟨0, ![]⟩ .f32 0x3F800000#32))
      (Host.exp (Host.negf (shapeCast ⟨1, ![16384]⟩ θ hc))))

/-- The loss from the weights `e`, the risk-set sums `r` and the event indicators `w`: minus the mean over the
    16384 samples of `(log e - log r) * w`, spelled with the host's operations (a sum from zero, a division by
    16384, a negation). Both programs end with exactly these lines. -/
def loss (e r w : Col) (hr : (⟨1, ![16384]⟩ : Shape).ReducesTo [0] ⟨0, ![]⟩) (hp : 0 < (⟨0, ![]⟩ : Shape).numel) :
    FVec Idealize.ShloMosaic.Ideal ⟨0, ![]⟩ .f32 :=
  Host.negf (Host.divf
    (Host.reduceAdd (mulf (subf (Host.log (F := Idealize.ShloMosaic.Ideal) (φ := .f32) e) (Host.log (F := Idealize.ShloMosaic.Ideal) (φ := .f32) r)) w)
      (constant ⟨0, ![]⟩ .f32 0x00000000#32) hr hp)
    (constant ⟨0, ![]⟩ .f32 0x46800000#32))

end Cert.RiskSum

end
-- ==== Proof.RunningColumn.lean ====
/-
  The running column, point by point, and the array the kernel leaves.

  The grid is 16 row blocks by 8 stretches: point `t` works on row block `t / 8` (rows `t / 8 * 1024 + r`) and on
  stretch `t % 8` of the risk set (positions `t % 8 * 2048 + k`). The three input blocks at the point are read off
  the arrays the host lines before the call wrote — the times as a column, the times as a row, the weights as a
  column, each a reshape of a vector — so each entry of a block is an entry of the times `s` or of the weights `e`.

  By induction on the point, after point `t` row `r` of the scratch column holds the sum over the stretches
  `0 … t % 8` of the weights kept where `s (t / 8 * 1024 + r) ≤ s j`: a sweep's first point starts from zero, each
  later point adds its stretch. After a sweep's last point (`t % 8 = 7`) that is the whole risk-set sum, the output
  block holds the same column, and the pipeline writes it back as rows `t / 8 * 1024 …` of the result. The 16 blocks
  written back tile the result, which therefore ends as the risk-set sums, one per row.
-/
import proofs.«136207_j69879117906541_1_alg».proof.Proof.PointValues
import proofs.«136207_j69879117906541_1_alg».proof.Proof.StepAtRow
import proofs.«136207_j69879117906541_1_alg».proof.Proof.RiskSpec
import proofs.«136207_j69879117906541_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Acc

open Cert.KernelIdeal Cert.KernelIdeal.Gen Cert.RiskSum

/-! ## What each point leaves, for any float instance -/

section AnyInstance
variable {F : FTy → Type} [FloatOps F]
variable (m : (ℓ : Loc nD τ sig) → Buf (Elt F) ℓ)

/-- A sweep's first point leaves the step over the reset column. -/
theorem scratch_at_first (c : Dev nD) (t : Fin cfg0.N) (h0 : t.val % 8 = 0) :
    (outsAt0 m c t.val t.isLt).2 = k0_pay2 (iblk m c 0 t) (iblk m c 1 t) (iblk m c 2 t) (k0_pay1 (F := F)) := by
  have h1 : ¬t.val % 8 = 7 := by omega
  rw [outsAt0_A m c t h0 h1]
  dsimp only
  exact scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- Every other point leaves the step over what the point before left. -/
theorem scratch_at_later (c : Dev nD) (t : Fin cfg0.N) (h0 : ¬t.val % 8 = 0) :
    (outsAt0 m c t.val t.isLt).2
      = k0_pay2 (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    exact scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a sweep's last point the output block holds what the scratch holds. -/
theorem out_at_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

end AnyInstance

/-! ## The blocks' entries are entries of the times and of the weights -/

section AtIdeal
variable (m : (ℓ : Loc nD τ sig) → Buf (Elt Ideal) ℓ)

/-- The block indices of the four windows at point `t`, decided over the grid: the times' column and the result move
    with the row block `t / 8`, the times' row and the weights' column with the stretch `t % 8`. -/
theorem index_facts : ∀ t : Fin cfg0.N,
    win0_0.index t 0 = t.val / 8 ∧ win0_0.index t 1 = 0 ∧ win0_1.index t 0 = 0 ∧ win0_1.index t 1 = t.val % 8
    ∧ win0_2.index t 0 = t.val % 8 ∧ win0_2.index t 1 = 0 ∧ win0_3.index t 0 = t.val / 8 ∧ win0_3.index t 1 = 0 :=
  (by decide +kernel : ∀ t : Fin grid0.N, _)

/-- The survival times: the first argument. -/
abbrev times (c : Dev nD) : Col := m ((c : Thread nD τ).loc main_arg0)
/-- The weights: the vector the host lines before the call compute from the third argument. -/
abbrev weights (c : Dev nD) : Col := V m c main_v6

/-- The times as a column, the times as a row, the weights as a column: reshapes of the two vectors. -/
theorem timesCol_eq (c : Dev nD) : (V m c main_v7 : Vec Ideal S16384x1 .f32) = shapeCast S16384x1 (times m c) shapeCasts_S16384_S16384x1 := by
  show StableHlo.after hostOps0 (fun b => m (c, b)) (Proc.devRef .tc main_v7) = _
  after_results
  rfl
theorem timesRow_eq (c : Dev nD) : (V m c main_v8 : Vec Ideal S1x16384 .f32) = shapeCast S1x16384 (times m c) shapeCasts_S16384_S1x16384 := by
  show StableHlo.after hostOps0 (fun b => m (c, b)) (Proc.devRef .tc main_v8) = _
  after_results
  rfl
theorem weightsCol_eq (c : Dev nD) : (V m c main_v9 : Vec Ideal S16384x1 .f32) = shapeCast S16384x1 (weights m c) shapeCasts_S16384_S16384x1 := by
  show StableHlo.after hostOps0 (fun b => m (c, b)) (Proc.devRef .tc main_v9) = shapeCast S16384x1 (StableHlo.after hostOps0 (fun b => m (c, b)) (Proc.devRef .tc main_v6)) _
  after_results
  rfl

/-- A vector reshaped to a column, read at row `i`, and reshaped to a row, read at position `j`: the same
    row-major position. -/
theorem col_apply (x : Col) (i : Fin 16384) (z : Fin 1) : shapeCast S16384x1 x shapeCasts_S16384_S16384x1 (ix2 i z) = x (ix1 i) :=
  shapeCast_apply x shapeCasts_S16384_S16384x1 (ix2 i z) (ix1 i)
    (by rewrite [Shape.rowMajor_val_two, Shape.rowMajor_val_one]; have hz : z.val < 1 := z.isLt; show i.val = i.val * 1 + z.val; omega)
theorem row_apply (x : Col) (z : Fin 1) (j : Fin 16384) : shapeCast S1x16384 x shapeCasts_S16384_S1x16384 (ix2 z j) = x (ix1 j) :=
  shapeCast_apply x shapeCasts_S16384_S1x16384 (ix2 z j) (ix1 j)
    (by rewrite [Shape.rowMajor_val_two, Shape.rowMajor_val_one]; have hz : z.val < 1 := z.isLt; show j.val = z.val * 16384 + j.val; omega)

/-- Row `r` of the times' block at point `t` is the time of sample `t / 8 * 1024 + r`. -/
theorem timesCol_entry (c : Dev nD) (t : Fin cfg0.N) (r : Fin 1024) (z : Fin 1) :
    (iblk m c 0 t : Vec Ideal S1024x1 .f32) (ix2 r z) = entry (times m c) (t.val / 8 * 1024 + r.val) := by
  have hN : t.val < 128 := lt_of_lt_of_eq t.isLt (show cfg0.N = 128 from N_0)
  have h : t.val / 8 * 1024 + r.val < 16384 := by have := r.isLt; omega
  rw [entry_of_lt _ _ h, ← col_apply (times m c) ⟨_, h⟩ z, ← timesCol_eq]
  unfold iblk
  rw [View.read_apply]
  show V m c main_v7 _ = V m c main_v7 _
  congr 1
  funext a
  apply Fin.ext
  match a with
  | ⟨0, _⟩ => show win0_0.index t 0 * 1024 + 1 * r.val = t.val / 8 * 1024 + r.val; rw [(index_facts t).1]; omega
  | ⟨1, _⟩ => show win0_0.index t 1 * 1 + 1 * z.val = z.val; rw [(index_facts t).2.1]; omega

/-- Position `k` of the times' row block at point `t` is the time of sample `t % 8 * 2048 + k`. -/
theorem timesRow_entry (c : Dev nD) (t : Fin cfg0.N) (z : Fin 1) (k : Fin 2048) :
    (iblk m c 1 t : Vec Ideal S1x2048 .f32) (ix2 z k) = entry (times m c) (t.val % 8 * 2048 + k.val) := by
  have h : t.val % 8 * 2048 + k.val < 16384 := by have := k.isLt; omega
  rw [entry_of_lt _ _ h, ← row_apply (times m c) z ⟨_, h⟩, ← timesRow_eq]
  unfold iblk
  rw [View.read_apply]
  show V m c main_v8 _ = V m c main_v8 _
  congr 1
  funext a
  apply Fin.ext
  match a with
  | ⟨0, _⟩ => show win0_1.index t 0 * 1 + 1 * z.val = z.val; rw [(index_facts t).2.2.1]; omega
  | ⟨1, _⟩ => show win0_1.index t 1 * 2048 + 1 * k.val = t.val % 8 * 2048 + k.val; rw [(index_facts t).2.2.2.1]; omega

/-- Row `k` of the weights' block at point `t` is the weight of sample `t % 8 * 2048 + k`. -/
theorem weightsCol_entry (c : Dev nD) (t : Fin cfg0.N) (k : Fin 2048) (z : Fin 1) :
    (iblk m c 2 t : Vec Ideal S2048x1 .f32) (ix2 k z) = entry (weights m c) (t.val % 8 * 2048 + k.val) := by
  have h : t.val % 8 * 2048 + k.val < 16384 := by have := k.isLt; omega
  rw [entry_of_lt _ _ h, ← col_apply (weights m c) ⟨_, h⟩ z, ← weightsCol_eq]
  unfold iblk
  rw [View.read_apply]
  show V m c main_v9 _ = V m c main_v9 _
  congr 1
  funext a
  apply Fin.ext
  match a with
  | ⟨0, _⟩ => show win0_2.index t 0 * 2048 + 1 * k.val = t.val % 8 * 2048 + k.val; rw [(index_facts t).2.2.2.2.1]; omega
  | ⟨1, _⟩ => show win0_2.index t 1 * 1 + 1 * z.val = z.val; rw [(index_facts t).2.2.2.2.2.1]; omega

/-! ## The step at a point, and the induction over the points -/

/-- The step at point `t`, row `r`: the column's entry plus stretch `t % 8`'s share of the risk-set sum of sample
    `t / 8 * 1024 + r`. -/
theorem point_step (c : Dev nD) (t : Fin cfg0.N) (acc : Vec Ideal S1024x1 .f32) (r : Fin 1024) (z : Fin 1) :
    k0_pay2 (F := Ideal) (iblk m c 0 t) (iblk m c 1 t) (iblk m c 2 t) acc (ix2 r z)
      = acc (ix2 r z) + ∑ k : Fin 2048, kept (times m c) (weights m c) (t.val / 8 * 1024 + r.val) (t.val % 8 * 2048 + k.val) := by
  refine (step_at_row _ _ _ acc r z).trans ?_
  refine congrArg (acc (ix2 r z) + ·) (Finset.sum_congr rfl fun k _ => ?_)
  exact kept_of_eq _ _ _ _ (timesCol_entry m c t r 0) (timesRow_entry m c t 0 k) (weightsCol_entry m c t k z)

/-- After point `t`, row `r` of the scratch column is the sum over stretches `0 … t % 8` of their shares of the
    risk-set sum of sample `t / 8 * 1024 + r`. -/
theorem scratch_after (c : Dev nD) : ∀ (n : ℕ) (t : Fin cfg0.N), t.val = n → ∀ (r : Fin 1024) (z : Fin 1),
    (outsAt0 m c t.val t.isLt).2 (ix2 r z)
      = ∑ b ∈ Finset.range (t.val % 8 + 1), ∑ k : Fin 2048, kept (times m c) (weights m c) (t.val / 8 * 1024 + r.val) (b * 2048 + k.val)
  | 0, t, ht, r, z => by
    have h0 : t.val % 8 = 0 := by omega
    rw [scratch_at_first m c t h0, point_step m c t _ r z, reset_at_row, zero_add, h0, Finset.sum_range_one]
  | n + 1, t, ht, r, z => by
    by_cases h0 : t.val % 8 = 0
    · rw [scratch_at_first m c t h0, point_step m c t _ r z, reset_at_row, zero_add, h0, Finset.sum_range_one]
    · have hlt : t.val - 1 < cfg0.N := Nat.lt_of_le_of_lt (Nat.sub_le _ _) t.isLt
      have IH : (outsAt0 m c (t.val - 1) hlt).2 (ix2 r z)
          = ∑ b ∈ Finset.range ((t.val - 1) % 8 + 1), ∑ k : Fin 2048, kept (times m c) (weights m c) ((t.val - 1) / 8 * 1024 + r.val) (b * 2048 + k.val) :=
        scratch_after c n ⟨t.val - 1, hlt⟩ (by show t.val - 1 = n; omega) r z
      have e1 : (t.val - 1) / 8 = t.val / 8 := by omega
      have e2 : (t.val - 1) % 8 + 1 = t.val % 8 := by omega
      rw [scratch_at_later m c t h0, point_step m c t _ r z, IH, e1, e2, Finset.sum_range_succ]

/-- After a sweep's last point the output block's row `r` is the whole risk-set sum of sample `t / 8 * 1024 + r`. -/
theorem out_after_sweep (c : Dev nD) (t : Fin cfg0.N) (h1 : t.val % 8 = 7) (r : Fin 1024) (z : Fin 1)
    (h : t.val / 8 * 1024 + r.val < 16384) :
    (outsAt0 m c t.val t.isLt).1 (ix2 r z) = risk (times m c) (weights m c) (ix1 ⟨t.val / 8 * 1024 + r.val, h⟩) := by
  rw [out_at_last m c t h1, scratch_after m c t.val t rfl r z, h1, risk_by_stretches]

end AtIdeal

/-! ## The array the kernel leaves -/

section AtIdeal
variable (m : (ℓ : Loc nD τ sig) → Buf (Elt Ideal) ℓ)

/-- The result as a column: row `i` holds the risk-set sum of sample `i`. -/
abbrev riskCol (c : Dev nD) : Vec Ideal S16384x1 .f32 := fun i => risk (times m c) (weights m c) (ix1 (i 0))

/-- Row `r` of the result's block at point `t` is row `t / 8 * 1024 + r` of the result, whatever it holds. -/
theorem result_block_read (G : Vec Ideal S16384x1 .f32) (t : Fin cfg0.N) (j : ((cfg0.win 3).xblock (grid0.coords t)).Idx)
    (h : t.val / 8 * 1024 + (j 0).val < 16384) :
    ((cfg0.win 3).blk t).view.read (Elt Ideal) G j = G (ix2 ⟨t.val / 8 * 1024 + (j 0).val, h⟩ (j 1)) := by
  rw [View.read_apply]
  show G _ = G _
  congr 1
  funext a
  apply Fin.ext
  match a with
  | ⟨0, _⟩ => show win0_3.index t 0 * 1024 + 1 * (j 0).val = t.val / 8 * 1024 + (j 0).val; rw [(index_facts t).2.2.2.2.2.2.1]; omega
  | ⟨1, _⟩ => show win0_3.index t 1 * 1 + 1 * (j 1).val = (j 1).val; rw [(index_facts t).2.2.2.2.2.2.2]; omega

/-- What a sweep's last point writes back is its block of that column. -/
theorem flushed_eq (c : Dev nD) (t : Fin cfg0.N) (hf : (cfg0.win 3).flush t = true) :
    (dats m 0 c).flushed 3 t = ((cfg0.win 3).blk t).view.read (Elt Ideal) (riskCol m c) := by
  have h1 : t.val % 8 = 7 := (flush0_3 t).mp hf
  have hN : t.val < 128 := lt_of_lt_of_eq t.isLt (show cfg0.N = 128 from N_0)
  show (cfg0.win 3).cut (grid0.coords t) ((dats m 0 c).after 3 t) = _
  rw [after0_3]
  funext j
  have hj0 : (j 0).val < 1024 := (j 0).isLt
  have h : t.val / 8 * 1024 + (j 0).val < 16384 := by omega
  rw [result_block_read (riskCol m c) t j h]
  have e : (cfg0.win 3).xinj (grid0.coords t) j = ix2 (j 0) (j 1) := funext fun a => by
    match a with
    | ⟨0, _⟩ => rfl
    | ⟨1, _⟩ => rfl
  show (outsAt0 m c t.val t.isLt).1 ((cfg0.win 3).xinj (grid0.coords t) j) = _
  rw [e]
  exact out_after_sweep m c t h1 (j 0) (j 1) h

/-- An index of the result is in point `t`'s block iff each coordinate is in the block's range on its axis. -/
theorem mem_result_block (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v10).slice (win0_3.rect t)).set ↔ _
  rw [View.set_slice_whole, Rect.mem_set_unit]
  exact Iff.rfl

/-- Every row of the result is written back by the last point of its row block's sweep. -/
theorem result_covered (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 128 := N_0
  refine ⟨⟨(i 0).val / 1024 * 8 + 7, by rw [hN]; omega⟩, (flush0_3 _).mpr (by show ((i 0).val / 1024 * 8 + 7) % 8 = 7; omega), ?_⟩
  rw [mem_result_block]
  obtain ⟨-, -, -, -, -, -, e0, e1⟩ := index_facts ⟨(i 0).val / 1024 * 8 + 7, by rw [hN]; omega⟩
  intro a
  match a with
  | ⟨0, _⟩ =>
    show win0_3.index _ 0 * 1024 ≤ (i 0).val ∧ (i 0).val < win0_3.index _ 0 * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_3.index _ 1 * 1 ≤ (i 1).val ∧ (i 1).val < win0_3.index _ 1 * 1 + 1
    rw [e1]
    omega

/-- So the result array ends as the column of risk-set sums. -/
theorem result_final (c : Dev nD) : (dats m 0 c).arrAt 3 cfg0.N = riskCol m c :=
  (dats m 0 c).arrAt_eq_of_cover 3 (riskCol m c) (flushed_eq m c) result_covered

/-- The column read back as a vector is the risk-set sums. -/
theorem riskCol_flat (c : Dev nD) :
    shapeCast S16384 (riskCol m c) shapeCasts_S16384x1_S16384 = risk (times m c) (weights m c) := by
  funext i
  obtain ⟨p, rfl⟩ : ∃ p : Fin 16384, i = ix1 p := ⟨i 0, eq_ix1 i⟩
  exact shapeCast_apply (riskCol m c) shapeCasts_S16384x1_S16384 (ix1 p) (ix2 p 0)
    (by rewrite [Shape.rowMajor_val_two, Shape.rowMajor_val_one]; show p.val * 1 + 0 = p.val; omega)

/-! ## The lines after the call -/

/-- The scalar the kernel's program returns: the loss of the weights, the risk-set sums and the second argument. -/
theorem loss_eq (c : Dev nD) :
    Pipeline.afterTail₀ cfgs (dats m) 0 (V0 m) [hostOps1] c main_v18
      = loss (weights m c) (risk (times m c) (weights m c)) (m ((c : Thread nD τ).loc main_arg1)) reducesTo_S16384_S_d0 h_S_ := by
  unfold Pipeline.afterTail₀
  show StableHlo.after hostOps1 _ (Proc.devRef .tc main_v18) = _
  after_results
  have e6 : Pipeline.withArrays (cfgs 0).spec c (V0 m c) (fun w => (dats m 0 c).arrAt w (cfgs 0).N) (Proc.devRef .tc main_v6) = weights m c :=
    Pipeline.withArrays_of_ne _ c (V0 m c) _ main_v6 (by exact (by decide : ∀ w, Pipeline.arrRef spec0 w ≠ main_v6))
  have e1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have e10 : Pipeline.withArrays (cfgs 0).spec c (V0 m c) (fun w => (dats m 0 c).arrAt w (cfgs 0).N) (Proc.devRef .tc main_v10) = riskCol m c :=
    (Pipeline.withArrays_arr spec0 launch0.win.arr_inj c _ _ 3).trans (result_final m c)
  rw [e6, e1, e10]
  rw [← riskCol_flat m c]
  rfl

/-- The weights are the logistic function of the third argument. -/
theorem weights_eq (c : Dev nD) :
    weights m c = logistic (m ((c : Thread nD τ).loc main_arg2)) shapeCasts_S16384x1_S16384 bcast_S_S16384 := by
  show StableHlo.after hostOps0 (fun b => m (c, b)) (Proc.devRef .tc main_v6) = _
  after_results
  rfl

/-! ## The run, read -/

/-- Every weakly fair execution of the kernel's program terminates with its result at the loss of the weights,
    the risk-set sums of the times against the weights, and the second argument; the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18)
          = loss (weights m c) (risk (times m c) (weights m c)) (m ((c : Thread nD τ).loc main_arg1)) reducesTo_S16384_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 (Pipeline.mem_restRefs_of main_v18 (by decide) (by decide))).trans (loss_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end AtIdeal

end Cert.KernelIdeal.Acc

end
-- ==== Proof.RefSide.lean ====
/-
  The reference computes the same two things: the risk-set sums, and the loss from them.

  Read one operation at a time, the reference's risk-set sum of sample `i` is the host's sum from zero, over every
  position `k`, of the select between the weight of sample `k` and zero on the comparison `s i ≤ s k` — the times
  repeated along the rows and along the columns of a square matrix, the weights along the rows. That is `risk`.
  Its last lines are the loss of the weights, those sums and the second argument.
-/
import proofs.«136207_j69879117906541_1_alg».proof.Proof.Gen.ReferenceIdeal.Read
import proofs.«136207_j69879117906541_1_alg».proof.Proof.RiskSpec
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read Cert.RiskSum

/-- Entry (i, k) of the square matrices reads the times at `i` (down the rows) and at `k` (along the columns),
    and the weights at `k`. -/
theorem rows_index (i : S16384.Idx) (k : Fin 16384) : idx_main_v7 (idx_main_v9 (idx_main_v14 i k)) = i :=
  funext fun a => Fin.ext (by match a with | ⟨0, _⟩ => rfl)
theorem cols_index (i : S16384.Idx) (k : Fin 16384) : idx_main_v8 (idx_main_v10 (idx_main_v14 i k)) = ix1 k :=
  funext fun a => Fin.ext (by match a with | ⟨0, _⟩ => rfl)
theorem weights_index (i : S16384.Idx) (k : Fin 16384) : idx_main_v12 (idx_main_call0_v1 (idx_main_v14 i k)) = ix1 k :=
  funext fun a => Fin.ext (by match a with | ⟨0, _⟩ => rfl)

/-- The reference's risk-set sums are `risk` of the times and the weights. -/
theorem risk_eq (x0 : (⟨S16384, .f32⟩ : BufTy).Contents (Elt Ideal)) (x2 : (⟨S16384x1, .f32⟩ : BufTy).Contents (Elt Ideal)) :
    val_main_v14 (F := Ideal) x0 x2 = risk x0 (val_main_v6 (F := Ideal) x2) := by
  funext i
  rw [val_main_v14_apply, val_main_cst_2_apply]
  show Ideal.ofBits .f32 0x00000000#32 + _ = _
  rw [Ideal.ofBits_zero_f32, zero_add]
  unfold risk
  refine Finset.sum_congr rfl fun k _ => ?_
  rw [val_main_v13_apply, val_main_v11_apply, val_main_v9_apply, val_main_v7_apply, val_main_v10_apply, val_main_v8_apply,
    val_main_call0_v1_apply, val_main_v12_apply, val_main_call0_v2_apply, val_main_call0_v0_apply, val_main_cst_1_apply,
    rows_index, cols_index, weights_index]
  show Scalar.select _ _ (Ideal.ofBits .f32 0x00000000#32) = _
  rw [Ideal.ofBits_zero_f32]
  rfl

/-- The reference's weights are the logistic function of the third argument. -/
theorem weights_eq (x2 : (⟨S16384x1, .f32⟩ : BufTy).Contents (Elt Ideal)) :
    val_main_v6 (F := Ideal) x2 = logistic x2 shapeCasts_S16384x1_S16384 bcast_S_S16384 := rfl

/-- The reference's result is the loss of the weights, the risk-set sums and the second argument. -/
theorem result_eq (x0 x1 : (⟨S16384, .f32⟩ : BufTy).Contents (Elt Ideal)) (x2 : (⟨S16384x1, .f32⟩ : BufTy).Contents (Elt Ideal)) :
    val_main_v21 (F := Ideal) x0 x1 x2
      = loss (logistic x2 shapeCasts_S16384x1_S16384 bcast_S_S16384) (risk x0 (logistic x2 shapeCasts_S16384x1_S16384 bcast_S_S16384)) x1
          reducesTo_S16384_S_d0 h_S_ := by
  rw [← weights_eq, ← risk_eq]
  rfl

end Cert.ReferenceIdeal.RefValue

end
-- ==== Proof.lean ====
/-
  The kernel computes the Cox partial-likelihood loss of 16384 samples: the weights `e = 1 / (1 + exp (-θ))`, the
  risk-set sums `risk i = ∑ j, (if s i ≤ s j then e j else 0)`, and minus the mean of `(log e - log risk) * w`.
  The weights and the final lines are the same host operations in both programs; they differ in the risk-set sums.

  The reference builds the 16384 × 16384 comparison, selects the weights against zero and sums each row. The
  kernel tiles the same sum: a grid of 16 row blocks by 8 stretches of 2048 positions, at each point the product of
  the 0/1 comparison block with the weights' block, accumulated in a scratch column that is reset at a sweep's first
  point and copied to the output at its last. Over the extended reals

    * the 0/1 weight times `e j` is `e j` kept or dropped (`1 * x = x`, `0 * x = 0` for every `x`),
    * a product into zeros is the plain sum over the contracted position, a change of float format the identity,
    * and the eight partial sums, added in order onto zero, are the sum over all 16384 positions, since the
      stretches partition them,

  so both programs leave the same risk-set sums and hence the same loss. Finiteness of the inputs is never used.

  The modules: BlockSum (the two facts about sums), RiskSpec (the three functions), StepAtRow (the body's
  arithmetic at a row), PointValues (what a point leaves in its buffers), RunningColumn (the induction over the
  points, the result array, the kernel's run), RefSide (the reference's operations read as the same functions).
-/
import proofs.«136207_j69879117906541_1_alg».proof.Defs
import proofs.«136207_j69879117906541_1_alg».proof.Proof.Gen.Kernel
import proofs.«136207_j69879117906541_1_alg».proof.Proof.Gen.Kernel.Skeleton
import proofs.«136207_j69879117906541_1_alg».proof.Proof.Gen.Kernel.Launch
import proofs.«136207_j69879117906541_1_alg».proof.Proof.Gen.Kernel.Points
import proofs.«136207_j69879117906541_1_alg».proof.Proof.Gen.Kernel.Frame
import proofs.«136207_j69879117906541_1_alg».proof.Proof.Gen.KernelIdeal
import proofs.«136207_j69879117906541_1_alg».proof.Proof.Gen.KernelIdeal.Skeleton
import proofs.«136207_j69879117906541_1_alg».proof.Proof.Gen.KernelIdeal.Launch
import proofs.«136207_j69879117906541_1_alg».proof.Proof.Gen.KernelIdeal.Points
import proofs.«136207_j69879117906541_1_alg».proof.Proof.Gen.KernelIdeal.Frame
import proofs.«136207_j69879117906541_1_alg».proof.Proof.Gen.ReferenceIdeal
import proofs.«136207_j69879117906541_1_alg».proof.Proof.Gen.ReferenceIdeal.Run
import proofs.«136207_j69879117906541_1_alg».proof.Proof.Gen.ReferenceIdeal.Read
import proofs.«136207_j69879117906541_1_alg».proof.Proof.Gen.Pre_finite_inputs
import proofs.«136207_j69879117906541_1_alg».proof.Proof.RunningColumn
import proofs.«136207_j69879117906541_1_alg».proof.Proof.RefSide
import Idealize.ShloMosaic.Adequacy
import Idealize.ShloMosaic.Init

noncomputable section

namespace Cert.Proof

open Idealize.ShloMosaic Idealize.SL.Sem

/-- The kernel as printed runs and keeps its arguments. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference is host operations only: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the loss of the same weights, the same risk-set sums and the same second argument. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2.1, (hagree c).2.2,
    Cert.KernelIdeal.Acc.weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
